-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x768 : Shape := ⟨3, ![8, 512, 768]⟩
abbrev S8x1x768 : Shape := ⟨3, ![8, 1, 768]⟩
abbrev S64x768 : Shape := ⟨2, ![64, 768]⟩
abbrev S74x768 : Shape := ⟨2, ![74, 768]⟩
abbrev S74 : Shape := ⟨1, ![74]⟩
abbrev S_ : Shape := ⟨0, ![]⟩

class Facts : Prop where
  bcast_S_S8x512x768 : S_.BroadcastsInDim S8x512x768 (![] : Fin 0 → Fin S8x512x768.rank)
  reducesTo_S8x512x768_S_d0_1_2 : S8x512x768.ReducesTo [0, 1, 2] S_
  h_S_ : 0 < S_.numel
  bcast_S_S8x1x768 : S_.BroadcastsInDim S8x1x768 (![] : Fin 0 → Fin S8x1x768.rank)
  reducesTo_S8x1x768_S_d0_1_2 : S8x1x768.ReducesTo [0, 1, 2] S_
  bcast_S_S64x768 : S_.BroadcastsInDim S64x768 (![] : Fin 0 → Fin S64x768.rank)
  reducesTo_S64x768_S_d0_1 : S64x768.ReducesTo [0, 1] S_
  bcast_S_S74x768 : S_.BroadcastsInDim S74x768 (![] : Fin 0 → Fin S74x768.rank)
  reducesTo_S74x768_S_d0_1 : S74x768.ReducesTo [0, 1] S_
  bcast_S_S74 : S_.BroadcastsInDim S74 (![] : Fin 0 → Fin S74.rank)
  reducesTo_S74_S_d0 : S74.ReducesTo [0] S_

variable [Facts]

def fn_part1 {F : FTy → Type} [FloatOps F] (main_arg4 : FVec F S74x768 .f32) (main_arg5 : FVec F S74 .f32) (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  let main_v19 : FVec F S74x768 .f32 := Host.absf main_arg4
  let main_cst_6 : FVec F S_ .f32 := constant S_ .f32 0x7F800000#32
  let main_v20 : FVec F S74x768 .f32 := broadcastInDim S74x768 ![] bcast_S_S74x768 main_cst_6
  let main_v21 : IVec S74x768 1 := cmpf .olt main_v19 main_v20
  let main_c_7 : IVec S_ 1 := constantI S_ 1 1#1
  let main_v22 : IVec S_ 1 := (fun x v => Host.reduce IntOp.andi x v reducesTo_S74x768_S_d0_1 h_S_) main_v21 main_c_7
  let main_v23 : IVec S_ 1 := andi main_v18 main_v22
  let main_v24 : FVec F S74 .f32 := Host.absf main_arg5
  let main_cst_8 : FVec F S_ .f32 := constant S_ .f32 0x7F800000#32
  let main_v25 : FVec F S74 .f32 := broadcastInDim S74 ![] bcast_S_S74 main_cst_8
  let main_v26 : IVec S74 1 := cmpf .olt main_v24 main_v25
  let main_c_9 : IVec S_ 1 := constantI S_ 1 1#1
  let main_v27 : IVec S_ 1 := (fun x v => Host.reduce IntOp.andi x v reducesTo_S74_S_d0 h_S_) main_v26 main_c_9
  let main_v28 : IVec S_ 1 := andi main_v23 main_v27
  main_v28

def fn {F : FTy → Type} [FloatOps F] (main_arg0 : FVec F S8x512x768 .f32) (main_arg1 : FVec F S8x1x768 .f32) (main_arg2 : FVec F S64x768 .f32) (main_arg3 : FVec F S64x768 .f32) (main_arg4 : FVec F S74x768 .f32) (main_arg5 : FVec F S74 .f32) : IVec S_ 1 :=
  let main_v0 : FVec F S8x512x768 .f32 := Host.absf main_arg0
  let main_cst : FVec F S_ .f32 := constant S_ .f32 0x7F800000#32
  let main_v1 : FVec F S8x512x768 .f32 := broadcastInDim S8x512x768 ![] bcast_S_S8x512x768 main_cst
  let main_v2 : IVec S8x512x768 1 := cmpf .olt main_v0 main_v1
  let main_c : IVec S_ 1 := constantI S_ 1 1#1
  let main_v3 : IVec S_ 1 := (fun x v => Host.reduce IntOp.andi x v reducesTo_S8x512x768_S_d0_1_2 h_S_) main_v2 main_c
  let main_v4 : FVec F S8x1x768 .f32 := Host.absf main_arg1
  let main_cst_0 : FVec F S_ .f32 := constant S_ .f32 0x7F800000#32
  let main_v5 : FVec F S8x1x768 .f32 := broadcastInDim S8x1x768 ![] bcast_S_S8x1x768 main_cst_0
  let main_v6 : IVec S8x1x768 1 := cmpf .olt main_v4 main_v5
  let main_c_1 : IVec S_ 1 := constantI S_ 1 1#1
  let main_v7 : IVec S_ 1 := (fun x v => Host.reduce IntOp.andi x v reducesTo_S8x1x768_S_d0_1_2 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S64x768 .f32 := Host.absf main_arg3
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_arg4 main_arg5 main_v13 main_v16
-- ==== Kernel.lean ====
abbrev S8x512x768 : Shape := ⟨3, ![8, 512, 768]⟩
abbrev S8x1x768 : Shape := ⟨3, ![8, 1, 768]⟩
abbrev S64x768 : Shape := ⟨2, ![64, 768]⟩
abbrev S74x768 : Shape := ⟨2, ![74, 768]⟩
abbrev S74 : Shape := ⟨1, ![74]⟩
abbrev S768x64 : Shape := ⟨2, ![768, 64]⟩
abbrev S8x512x512 : Shape := ⟨3, ![8, 512, 512]⟩
abbrev S8x512x1 : Shape := ⟨3, ![8, 512, 1]⟩
abbrev S1x512x768 : Shape := ⟨3, ![1, 512, 768]⟩
abbrev S1x512x512 : Shape := ⟨3, ![1, 512, 512]⟩
abbrev S1x512x1 : Shape := ⟨3, ![1, 512, 1]⟩
abbrev S512x768 : Shape := ⟨2, ![512, 768]⟩
abbrev S512x64 : Shape := ⟨2, ![512, 64]⟩
abbrev S512 : Shape := ⟨1, ![512]⟩
abbrev S512x1 : Shape := ⟨2, ![512, 1]⟩
abbrev S64x512 : Shape := ⟨2, ![64, 512]⟩
abbrev S512x512 : Shape := ⟨2, ![512, 512]⟩
abbrev S1x512 : Shape := ⟨2, ![1, 512]⟩
abbrev S8x512 : Shape := ⟨2, ![8, 512]⟩
abbrev S_ : Shape := ⟨0, ![]⟩
abbrev S8x1 : Shape := ⟨2, ![8, 1]⟩
abbrev S8x1x1 : Shape := ⟨3, ![8, 1, 1]⟩
abbrev S8x768 : Shape := ⟨2, ![8, 768]⟩
abbrev S768x74 : Shape := ⟨2, ![768, 74]⟩
abbrev S8x74 : Shape := ⟨2, ![8, 74]⟩
abbrev S1x74 : Shape := ⟨2, ![1, 74]⟩

abbrev nBuf : Space → Nat
  | .hbm => 40
  | .vmem => 8
  | .smem => 0
  | _ => 0

abbrev bufTy : (tb : Table) → Fin (tcTables nBuf tb) → BufTy
  | .hbm, ⟨0, _⟩ => ⟨S8x512x768, .f32⟩
  | .hbm, ⟨1, _⟩ => ⟨S8x1x768, .f32⟩
  | .hbm, ⟨2, _⟩ => ⟨S64x768, .f32⟩
  | .hbm, ⟨3, _⟩ => ⟨S64x768, .f32⟩
  | .hbm, ⟨4, _⟩ => ⟨S74x768, .f32⟩
  | .hbm, ⟨5, _⟩ => ⟨S74, .f32⟩
  | .hbm, ⟨6, _⟩ => ⟨S768x64, .f32⟩
  | .hbm, ⟨7, _⟩ => ⟨S768x64, .f32⟩
  | .hbm, ⟨8, _⟩ => ⟨S8x512x512, .f32⟩
  | .hbm, ⟨9, _⟩ => ⟨S8x512x1, .f32⟩
  | .hbm, ⟨10, _⟩ => ⟨S8x512, .f32⟩
  | .hbm, ⟨11, _⟩ => ⟨S_, .f32⟩
  | .hbm, ⟨12, _⟩ => ⟨S8x1, .f32⟩
  | .hbm, ⟨13, _⟩ => ⟨S8x1x1, .f32⟩
  | .hbm, ⟨14, _⟩ => ⟨S_, .f32⟩
  | .hbm, ⟨15, _⟩ => ⟨S8x1x1, .f32⟩
  | .hbm, ⟨16, _⟩ => ⟨S8x1x1, .f32⟩
  | .hbm, ⟨17, _⟩ => ⟨S8x1x768, .f32⟩
  | .hbm, ⟨18, _⟩ => ⟨S8x1x768, .f32⟩
  | .hbm, ⟨19, _⟩ => ⟨S8x1x768, .f32⟩
  | .hbm, ⟨20, _⟩ => ⟨S_, .f32⟩
  | .hbm, ⟨21, _⟩ => ⟨S8x1, .f32⟩
  | .hbm, ⟨22, _⟩ => ⟨S8x1x1, .f32⟩
  | .hbm, ⟨23, _⟩ => ⟨S_, .f32⟩
  | .hbm, ⟨24, _⟩ => ⟨S8x1x1, .f32⟩
  | .hbm, ⟨25, _⟩ => ⟨S8x1x1, .f32⟩
  | .hbm, ⟨26, _⟩ => ⟨S8x1x768, .f32⟩
  | .hbm, ⟨27, _⟩ => ⟨S8x1x768, .f32⟩
  | .hbm, ⟨28, _⟩ => ⟨S_, .f32⟩
  | .hbm, ⟨29, _⟩ => ⟨S8x1x1, .f32⟩
  | .hbm, ⟨30, _⟩ => ⟨S8x1x1, .f32⟩
  | .hbm, ⟨31, _⟩ => ⟨S8x1x1, .f32⟩
  | .hbm, ⟨32, _⟩ => ⟨S8x1x768, .f32⟩
  | .hbm, ⟨33, _⟩ => ⟨S8x1x768, .f32⟩
  | .hbm, ⟨34, _⟩ => ⟨S8x768, .f32⟩
  | .hbm, ⟨35, _⟩ => ⟨S768x74, .f32⟩
  | .hbm, ⟨36, _⟩ => ⟨S8x74, .f32⟩
  | .hbm, ⟨37, _⟩ => ⟨S1x74, .f32⟩
  | .hbm, ⟨38, _⟩ => ⟨S8x74, .f32⟩
  | .hbm, ⟨39, _⟩ => ⟨S8x74, .f32⟩
  | .local _ .vmem, ⟨0, _⟩ => ⟨S1x512x768, .f32⟩
  | .local _ .vmem, ⟨1, _⟩ => ⟨S1x512x768, .f32⟩
  | .local _ .vmem, ⟨2, _⟩ => ⟨S768x64, .f32⟩
  | .local _ .vmem, ⟨3, _⟩ => ⟨S768x64, .f32⟩
  | .local _ .vmem, ⟨4, _⟩ => ⟨S1x512x512, .f32⟩
  | .local _ .vmem, ⟨5, _⟩ => ⟨S1x512x512, .f32⟩
  | .local _ .vmem, ⟨6, _⟩ => ⟨S1x512x1, .f32⟩
  | .local _ .vmem, ⟨7, _⟩ => ⟨S1x512x1, .f32⟩
  | _, _ => ⟨S8x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x768_S768x64_1_0 : S64x768.Transposes [1, 0] S768x64
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  bitsLt_bf16_f32 : FTy.bits .bf16 < FTy.bits .f32
  inb_S768x64_S768x64_0_0 : ∀ a, (![0, 0] : Fin 2 → Nat) a + S768x64.size a ≤ S768x64.size a
  h_S768x64 : 0 < S768x64.numel
  shapeCasts_S768x64_S768x64 : S768x64.ShapeCasts S768x64
  reduces_S512x64_S512 : S512x64.Reduces [1] S512
  shapeCasts_S512_S512x1 : S512.ShapeCasts S512x1
  transposes_S512x64_p1_0_S64x512 : S512x64.Transposes [1, 0] S64x512
  transposes_S512x1_p1_0_S1x512 : S512x1.Transposes [1, 0] S1x512
  broadcasts_S512x1_S512x512 : S512x1.Broadcasts S512x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  shapeCasts_S8x512x1_S8x512 : S8x512x1.ShapeCasts S8x512
  reducesTo_S8x1x768_S8x1_d2 : S8x1x768.ReducesTo [2] S8x1
  h_S_ : 0 < S_.numel
  bcast_S8x1_S8x1x1_0_1 : S8x1.BroadcastsInDim S8x1x1 (![0, 1] : Fin 2 → Fin S8x1x1.rank)
  bcast_S_S8x1x1 : S_.BroadcastsInDim S8x1x1 (![] : Fin 0 → Fin S8x1x1.rank)
  bcast_S8x1x1_S8x1x768_0_1_2 : S8x1x1.BroadcastsInDim S8x1x768 (![0, 1, 2] : Fin 3 → Fin S8x1x768.rank)
  shapeCasts_S8x1x768_S8x768 : S8x1x768.ShapeCasts S8x768
  transposes_S74x768_S768x74_1_0 : S74x768.Transposes [1, 0] S768x74
  bcast_S74_S1x74_1 : S74.BroadcastsInDim S1x74 (![1] : Fin 1 → Fin S1x74.rank)
  bcast_S1x74_S8x74_0_1 : S1x74.BroadcastsInDim S8x74 (![0, 1] : Fin 2 → Fin S8x74.rank)
  dot_S512x768_S768x64_S512x64_1_0_0_1_n_n_wf : DotDims.WF S512x768 S768x64 S512x64 [1] [0] [0] [1] [] []
  dot_S512x64_S64x512_S512x512_1_0_0_1_n_n_wf : DotDims.WF S512x64 S64x512 S512x512 [1] [0] [0] [1] [] []
  dot_S8x768_S768x74_S8x74_1_0_0_1_n_n_wf : DotDims.WF S8x768 S768x74 S8x74 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S8x512x768.size a
  hwx0_0 : ∀ i : grid0.Coords, EltTy.bits .f32 = 32 ∨ (Rect.block (s := S8x512x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x64.size a ≤ S768x64.size a
  hwx0_1 : ∀ i : grid0.Coords, EltTy.bits .f32 = 32 ∨ (Rect.block (s := S768x64) S768x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x64.size a ≤ S768x64.size a
  hwx0_2 : ∀ i : grid0.Coords, EltTy.bits .f32 = 32 ∨ (Rect.block (s := S768x64) S768x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x512x512.size a
  hwx0_3 : ∀ i : grid0.Coords, EltTy.bits .f32 = 32 ∨ (Rect.block (s := S8x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S8x512x1.size a
  hwx0_4 : ∀ i : grid0.Coords, EltTy.bits .f32 = 32 ∨ (Rect.block (s := S8x512x1) S1x512x1.size (cc0_transform_4 i) (hinb0_4 i)).WholeWords (EltTy.packing .f32)

variable [Facts₀]

def dot_S512x768_S768x64_S512x64_1_0_0_1_n_n : DotDims S512x768 S768x64 S512x64 where
  lhsContracting := [1]
  rhsContracting := [0]
  lhsNonContracting := [0]
  rhsNonContracting := [1]
  lhsBatch := []
  rhsBatch := []
  wf := dot_S512x768_S768x64_S512x64_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S8x768_S768x74_S8x74_1_0_0_1_n_n : DotDims S8x768 S768x74 S8x74 where
  lhsContracting := [1]
  rhsContracting := [0]
  lhsNonContracting := [0]
  rhsNonContracting := [1]
  lhsBatch := []
  rhsBatch := []
  wf := dot_S8x768_S768x74_S8x74_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x512x768 : Shape := ⟨3, ![8, 512, 768]⟩
abbrev S8x1x768 : Shape := ⟨3, ![8, 1, 768]⟩
abbrev S64x768 : Shape := ⟨2, ![64, 768]⟩
abbrev S74x768 : Shape := ⟨2, ![74, 768]⟩
abbrev S74 : Shape := ⟨1, ![74]⟩
abbrev S8x512x64 : Shape := ⟨3, ![8, 512, 64]⟩
abbrev S8x512x1x64 : Shape := ⟨4, ![8, 512, 1, 64]⟩
abbrev S8x1x512x64 : Shape := ⟨4, ![8, 1, 512, 64]⟩
abbrev S8x512x512x64 : Shape := ⟨4, ![8, 512, 512, 64]⟩
abbrev S_ : Shape := ⟨0, ![]⟩
abbrev S8x512x512 : Shape := ⟨3, ![8, 512, 512]⟩
abbrev S8x512 : Shape := ⟨2, ![8, 512]⟩
abbrev S8x1 : Shape := ⟨2, ![8, 1]⟩
abbrev S8x1x1 : Shape := ⟨3, ![8, 1, 1]⟩
abbrev S8x768 : Shape := ⟨2, ![8, 768]⟩
abbrev S768x74 : Shape := ⟨2, ![768, 74]⟩
abbrev S8x74 : Shape := ⟨2, ![8, 74]⟩
abbrev S1x74 : Shape := ⟨2, ![1, 74]⟩

abbrev nBuf : Space → Nat
  | .hbm => 48
  | .vmem => 0
  | .smem => 0
  | _ => 0

abbrev bufTy : (tb : Table) → Fin (tcTables nBuf tb) → BufTy
  | .hbm, ⟨0, _⟩ => ⟨S8x512x768, .f32⟩
  | .hbm, ⟨1, _⟩ => ⟨S8x1x768, .f32⟩
  | .hbm, ⟨2, _⟩ => ⟨S64x768, .f32⟩
  | .hbm, ⟨3, _⟩ => ⟨S64x768, .f32⟩
  | .hbm, ⟨4, _⟩ => ⟨S74x768, .f32⟩
  | .hbm, ⟨5, _⟩ => ⟨S74, .f32⟩
  | .hbm, ⟨6, _⟩ => ⟨S8x512x64, .f32⟩
  | .hbm, ⟨7, _⟩ => ⟨S8x512x1x64, .f32⟩
  | .hbm, ⟨8, _⟩ => ⟨S8x1x512x64, .f32⟩
  | .hbm, ⟨9, _⟩ => ⟨S8x512x512x64, .f32⟩
  | .hbm, ⟨10, _⟩ => ⟨S8x512x512x64, .f32⟩
  | .hbm, ⟨11, _⟩ => ⟨S8x512x512x64, .f32⟩
  | .hbm, ⟨12, _⟩ => ⟨S8x512x512x64, .f32⟩
  | .hbm, ⟨13, _⟩ => ⟨S_, .f32⟩
  | .hbm, ⟨14, _⟩ => ⟨S8x512x512, .f32⟩
  | .hbm, ⟨15, _⟩ => ⟨S8x512x64, .f32⟩
  | .hbm, ⟨16, _⟩ => ⟨S8x512x64, .f32⟩
  | .hbm, ⟨17, _⟩ => ⟨S_, .f32⟩
  | .hbm, ⟨18, _⟩ => ⟨S8x512, .f32⟩
  | .hbm, ⟨19, _⟩ => ⟨S_, .f32⟩
  | .hbm, ⟨20, _⟩ => ⟨S8x1, .f32⟩
  | .hbm, ⟨21, _⟩ => ⟨S8x1x1, .f32⟩
  | .hbm, ⟨22, _⟩ => ⟨S_, .f32⟩
  | .hbm, ⟨23, _⟩ => ⟨S8x1x1, .f32⟩
  | .hbm, ⟨24, _⟩ => ⟨S8x1x1, .f32⟩
  | .hbm, ⟨25, _⟩ => ⟨S8x1x768, .f32⟩
  | .hbm, ⟨26, _⟩ => ⟨S8x1x768, .f32⟩
  | .hbm, ⟨27, _⟩ => ⟨S8x1x768, .f32⟩
  | .hbm, ⟨28, _⟩ => ⟨S_, .f32⟩
  | .hbm, ⟨29, _⟩ => ⟨S8x1, .f32⟩
  | .hbm, ⟨30, _⟩ => ⟨S8x1x1, .f32⟩
  | .hbm, ⟨31, _⟩ => ⟨S_, .f32⟩
  | .hbm, ⟨32, _⟩ => ⟨S8x1x1, .f32⟩
  | .hbm, ⟨33, _⟩ => ⟨S8x1x1, .f32⟩
  | .hbm, ⟨34, _⟩ => ⟨S8x1x768, .f32⟩
  | .hbm, ⟨35, _⟩ => ⟨S8x1x768, .f32⟩
  | .hbm, ⟨36, _⟩ => ⟨S_, .f32⟩
  | .hbm, ⟨37, _⟩ => ⟨S8x1x1, .f32⟩
  | .hbm, ⟨38, _⟩ => ⟨S8x1x1, .f32⟩
  | .hbm, ⟨39, _⟩ => ⟨S8x1x1, .f32⟩
  | .hbm, ⟨40, _⟩ => ⟨S8x1x768, .f32⟩
  | .hbm, ⟨41, _⟩ => ⟨S8x1x768, .f32⟩
  | .hbm, ⟨42, _⟩ => ⟨S8x768, .f32⟩
  | .hbm, ⟨43, _⟩ => ⟨S768x74, .f32⟩
  | .hbm, ⟨44, _⟩ => ⟨S8x74, .f32⟩
  | .hbm, ⟨45, _⟩ => ⟨S1x74, .f32⟩
  | .hbm, ⟨46, _⟩ => ⟨S8x74, .f32⟩
  | .hbm, ⟨47, _⟩ => ⟨S8x74, .f32⟩
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S8x512x64_S8x512x1x64_0_1_3 : S8x512x64.BroadcastsInDim S8x512x1x64 (![0, 1, 3] : Fin 3 → Fin S8x512x1x64.rank)
  bcast_S8x512x64_S8x1x512x64_0_2_3 : S8x512x64.BroadcastsInDim S8x1x512x64 (![0, 2, 3] : Fin 3 → Fin S8x1x512x64.rank)
  bcast_S8x512x1x64_S8x512x512x64_0_1_2_3 : S8x512x1x64.BroadcastsInDim S8x512x512x64 (![0, 1, 2, 3] : Fin 4 → Fin S8x512x512x64.rank)
  bcast_S8x1x512x64_S8x512x512x64_0_1_2_3 : S8x1x512x64.BroadcastsInDim S8x512x512x64 (![0, 1, 2, 3] : Fin 4 → Fin S8x512x512x64.rank)
  reducesTo_S8x512x512x64_S8x512x512_d3 : S8x512x512x64.ReducesTo [3] S8x512x512
  h_S_ : 0 < S_.numel
  reducesTo_S8x512x64_S8x512_d2 : S8x512x64.ReducesTo [2] S8x512
  reducesTo_S8x1x768_S8x1_d2 : S8x1x768.ReducesTo [2] S8x1
  bcast_S8x1_S8x1x1_0_1 : S8x1.BroadcastsInDim S8x1x1 (![0, 1] : Fin 2 → Fin S8x1x1.rank)
  bcast_S_S8x1x1 : S_.BroadcastsInDim S8x1x1 (![] : Fin 0 → Fin S8x1x1.rank)
  bcast_S8x1x1_S8x1x768_0_1_2 : S8x1x1.BroadcastsInDim S8x1x768 (![0, 1, 2] : Fin 3 → Fin S8x1x768.rank)
  shapeCasts_S8x1x768_S8x768 : S8x1x768.ShapeCasts S8x768
  transposes_S74x768_S768x74_1_0 : S74x768.Transposes [1, 0] S768x74
  bcast_S74_S1x74_1 : S74.BroadcastsInDim S1x74 (![1] : Fin 1 → Fin S1x74.rank)
  bcast_S1x74_S8x74_0_1 : S1x74.BroadcastsInDim S8x74 (![0, 1] : Fin 2 → Fin S8x74.rank)
  dot_S8x512x768_S64x768_S8x512x64_2_1_01_0_n_n_wf : DotDims.WF S8x512x768 S64x768 S8x512x64 [2] [1] [0, 1] [0] [] []
  dot_S8x768_S768x74_S8x74_1_0_0_1_n_n_wf : DotDims.WF S8x768 S768x74 S8x74 [1] [0] [0] [1] [] []

variable [Facts₀]

def dot_S8x512x768_S64x768_S8x512x64_2_1_01_0_n_n : DotDims S8x512x768 S64x768 S8x512x64 where
  lhsContracting := [2]
  rhsContracting := [1]
  lhsNonContracting := [0, 1]
  rhsNonContracting := [0]
  lhsBatch := []
  rhsBatch := []
  wf := dot_S8x512x768_S64x768_S8x512x64_2_1_01_0_n_n_wf
def dot_S8x768_S768x74_S8x74_1_0_0_1_n_n : DotDims S8x768 S768x74 S8x74 where
  lhsContracting := [1]
  rhsContracting := [0]
  lhsNonContracting := [0]
  rhsNonContracting := [1]
  lhsBatch := []
  rhsBatch := []
  wf := dot_S8x768_S768x74_S8x74_1_0_0_1_n_n_wf

class Facts : Prop extends Facts₀ where

variable [Facts]
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.LibRowSum.lean ====
/-
  A sum along the rows of a two-dimensional array, read at a row.

  Reducing an [m, n] array over its second axis leaves an [m] array; at row p the kernel's vector reduction from
  the zero accumulator is the plain sum of the row's n entries.  Stated for any extents.
-/
import Idealize.ShloMosaic.Lib.ValueIdx
import Idealize.ShloMosaic.PureOps.Ideal.Laws

noncomputable section

open scoped BigOperators

namespace RowSum

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The kernel's sum over the second axis from the zero word, at row p: the sum of the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] (⟨1, ![m]⟩ : Shape) src acc h hφ hacc (ix1 p) = ∑ k : Fin n, src (ix2 p k) := by
  refine (Ideal.multiReduction_add_single src acc h hφ hacc (ix1 p)).trans ?_
  exact Finset.sum_congr rfl fun k _ => congrArg src (lift_ix2 h p k)

end RowSum

end
-- ==== Proof.LibRealValued.lean ====
/-
  Extended reals that are real numbers.

  An extended real is REAL when it is the image of a real number, that is, neither of the two infinities. The real
  values are closed under the field operations, under maximum and minimum, under a quotient by a non-zero real and
  under finite sums. On real values the extended reals are a commutative ring, so the distributive law, which fails
  at the infinities (a negative factor times ⊤ + ⊥ is ⊤, while the sum of the two products is ⊥), holds.
-/
import Idealize.ShloMosaic.PureOps.Ideal

noncomputable section

namespace Cert.RealValued

open Idealize.ShloMosaic

/-- The extended real `a` is a real number. -/
def IsReal (a : EReal) : Prop := ∃ r : ℝ, a = (r : EReal)

theorem IsReal.coe (r : ℝ) : IsReal (r : EReal) := ⟨r, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.max {a b : EReal} (ha : IsReal a) (hb : IsReal b) : IsReal (max a b) := by
  rcases le_total a b with h | h
  · rw [max_eq_right h]; exact hb
  · rw [max_eq_left h]; exact ha

theorem IsReal.min {a b : EReal} (ha : IsReal a) (hb : IsReal b) : IsReal (min a b) := by
  rcases le_total a b with h | h
  · rw [min_eq_left h]; exact ha
  · rw [min_eq_right h]; exact hb

/-- The quotient of a real value by a non-zero real number is real: it is the product with the reciprocal. -/
theorem IsReal.div_coe {a : EReal} {y : ℝ} (hy : y ≠ 0) (ha : IsReal a) : IsReal (Ideal.div a (y : EReal)) := by
  rw [Ideal.div_coe hy]
  exact ha.mul ⟨_, rfl⟩

/-- A finite sum of real values is real. -/
theorem IsReal.sum {ι : Type*} (s : Finset ι) (f : ι → EReal) : (∀ i ∈ s, IsReal (f i)) → IsReal (∑ i ∈ s, f i) := by
  classical
  refine Finset.induction_on s (fun _ => ⟨0, by simp⟩) ?_
  intro a s ha ih h
  rw [Finset.sum_insert ha]
  exact (h a (Finset.mem_insert_self a s)).add (ih fun i hi => h i (Finset.mem_insert_of_mem hi))

/-- On real values: `(-c) · d + c · p = c · (p - d)`. -/
theorem neg_mul_add_mul_eq_mul_sub {c p d : EReal} (hc : IsReal c) (hp : IsReal p) (hd : IsReal d) :
    -c * d + c * p = c * (p - d) := by
  obtain ⟨c, rfl⟩ := hc
  obtain ⟨p, rfl⟩ := hp
  obtain ⟨d, rfl⟩ := hd
  rw [← EReal.coe_neg, ← EReal.coe_mul, ← EReal.coe_mul, ← EReal.coe_add, ← EReal.coe_sub, ← EReal.coe_mul]
  congr 1
  ring

end Cert.RealValued

end
-- ==== Proof.ProbeSpec.lean ====
/-
  The pairwise squared distances and squared norms of rank-64 projections of a batch of token rows: the functions
  both programs compute, and the law that joins their two arrangements.

  Each token row x(b, l, ·) of length 768 is projected by a 64 x 768 weight to d(b, l, r) = ∑ k, x(b, l, k) · w(r, k).
  The squared norm of a projected token is ∑ r, d(b, l, r)², and the squared distance of tokens i and j of one batch
  element is ∑ r, (d(b, i, r) − d(b, j, r))².  The same distance may be written with inner products,
  (⟨dᵢ, dᵢ⟩ + ⟨dⱼ, dⱼ⟩) − 2 ⟨dᵢ, dⱼ⟩, clamped below at 0.  Expanding the square is the distributive law, which the
  extended reals have only away from the infinities; on real values the two forms agree, and the clamp is the
  identity because a sum of squares is non-negative.
-/
import Idealize.ShloMosaic.Lib.ValueIdx
import Idealize.ShloMosaic.PureOps.Ideal.Laws
import proofs.«163133_j77610059039275_1_alg».proof.Proof.LibRealValued

noncomputable section

open scoped BigOperators

namespace Cert.Probe

open Idealize.ShloMosaic Idealize.ShloMosaic.ValueIdx Cert.RealValued

/-- The float word of 2.0 denotes the real number 2. -/
theorem ofBits_two : Ideal.ofBits .f32 0x40000000#32 = ((2 : ℝ) : EReal) := by
  simp [Ideal.ofBits, Ideal.ieee, -EReal.coe_mul]; norm_num

/-- A finite sum of real numbers, taken in the extended reals, is the real sum. -/
theorem coe_sum {ι : Type*} (s : Finset ι) (f : ι → ℝ) : (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-! ## The law, over any finite index type -/

section Law

variable {ι : Type*} [Fintype ι]

/-- On real vectors a and b: the inner-product form of the squared distance, clamped below at zero, is the sum of the
    squared differences. -/
theorem clamp_gram_eq_sum_sq (a b : ι → EReal) (ha : ∀ r, IsReal (a r)) (hb : ∀ r, IsReal (b r)) :
    max (((∑ r, a r * a r) + (∑ r, b r * b r)) - ((2 : ℝ) : EReal) * (∑ r, a r * b r)) 0
      = ∑ r, (a r - b r) * (a r - b r) := by
  choose a' ha' using ha
  choose b' hb' using hb
  have e1 : (∑ r, a r * a r) = ((∑ r, a' r * a' r : ℝ) : EReal) := by
    rw [← coe_sum]; exact Finset.sum_congr rfl fun r _ => by rw [ha' r, EReal.coe_mul]
  have e2 : (∑ r, b r * b r) = ((∑ r, b' r * b' r : ℝ) : EReal) := by
    rw [← coe_sum]; exact Finset.sum_congr rfl fun r _ => by rw [hb' r, EReal.coe_mul]
  have e3 : (∑ r, a r * b r) = ((∑ r, a' r * b' r : ℝ) : EReal) := by
    rw [← coe_sum]; exact Finset.sum_congr rfl fun r _ => by rw [ha' r, hb' r, EReal.coe_mul]
  have e4 : (∑ r, (a r - b r) * (a r - b r)) = ((∑ r, (a' r - b' r) * (a' r - b' r) : ℝ) : EReal) := by
    rw [← coe_sum]; exact Finset.sum_congr rfl fun r _ => by rw [ha' r, hb' r, ← EReal.coe_sub, EReal.coe_mul]
  have hreal : ((∑ r, a' r * a' r) + (∑ r, b' r * b' r)) - 2 * (∑ r, a' r * b' r) = ∑ r, (a' r - b' r) * (a' r - b' r) := by
    rw [Finset.mul_sum, ← Finset.sum_add_distrib, ← Finset.sum_sub_distrib]
    exact Finset.sum_congr rfl fun r _ => by ring
  have hnn : (0 : ℝ) ≤ ∑ r, (a' r - b' r) * (a' r - b' r) :=
    Finset.sum_nonneg fun r _ => mul_self_nonneg _
  rw [e1, e2, e3, e4, ← EReal.coe_add, ← EReal.coe_mul, ← EReal.coe_sub, hreal]
  exact max_eq_left (by exact_mod_cast hnn)

end Law

/-! ## The functions of the argument arrays -/

abbrev STok : Shape := ⟨3, ![8, 512, 768]⟩
abbrev SWgt : Shape := ⟨2, ![64, 768]⟩
abbrev SDist : Shape := ⟨3, ![8, 512, 512]⟩
abbrev SNorm : Shape := ⟨2, ![8, 512]⟩

/-- Coordinate r of token l of batch element b, projected: ∑ k, x(b, l, k) · w(r, k). -/
def proj (x : STok.Idx → EReal) (w : SWgt.Idx → EReal) (b : Fin 8) (l : Fin 512) (r : Fin 64) : EReal :=
  ∑ k : Fin 768, x (ix3 b l k) * w (ix2 r k)

/-- The squared distance of the projected tokens i 1 and i 2 of batch element i 0, as a sum of squared differences. -/
def sqDist (x : STok.Idx → EReal) (w : SWgt.Idx → EReal) : SDist.Idx → EReal := fun i =>
  ∑ r : Fin 64, (proj x w (i 0) (i 1) r - proj x w (i 0) (i 2) r) * (proj x w (i 0) (i 1) r - proj x w (i 0) (i 2) r)

/-- The same by inner products, clamped below at zero. -/
def sqDistGram (x : STok.Idx → EReal) (w : SWgt.Idx → EReal) : SDist.Idx → EReal := fun i =>
  max (((∑ r : Fin 64, proj x w (i 0) (i 1) r * proj x w (i 0) (i 1) r)
        + (∑ r : Fin 64, proj x w (i 0) (i 2) r * proj x w (i 0) (i 2) r))
      - ((2 : ℝ) : EReal) * (∑ r : Fin 64, proj x w (i 0) (i 1) r * proj x w (i 0) (i 2) r)) 0

/-- The squared norm of the projected token i 1 of batch element i 0. -/
def sqNorm (x : STok.Idx → EReal) (w : SWgt.Idx → EReal) : SNorm.Idx → EReal := fun i =>
  ∑ r : Fin 64, proj x w (i 0) (i 1) r * proj x w (i 0) (i 1) r

/-- A projection of real tokens by real weights is real. -/
theorem proj_isReal (x : STok.Idx → EReal) (w : SWgt.Idx → EReal) (hx : ∀ i, IsReal (x i)) (hw : ∀ i, IsReal (w i))
    (b : Fin 8) (l : Fin 512) (r : Fin 64) : IsReal (proj x w b l r) :=
  IsReal.sum _ _ fun k _ => (hx _).mul (hw _)

/-- On real tokens and weights the inner-product form is the sum of squared differences. -/
theorem sqDistGram_eq_sqDist (x : STok.Idx → EReal) (w : SWgt.Idx → EReal) (hx : ∀ i, IsReal (x i)) (hw : ∀ i, IsReal (w i)) :
    sqDistGram x w = sqDist x w :=
  funext fun i => clamp_gram_eq_sum_sq _ _ (fun r => proj_isReal x w hx hw _ _ r) (fun r => proj_isReal x w hx hw _ _ r)

end Cert.Probe

end
-- ==== Proof.KernelBody.lean ====
/-
  What the kernel body computes on one batch element, entry by entry.

  The body loads the element's 512 token rows x (a [1, 512, 768] block) and a transposed weight w ([768, 64]) and forms
  the projected rows d(p, r) = ∑ k, x(0, p, k) · w(k, r) by one matrix product into a zero accumulator; narrowing the
  operands to bf16 changes nothing over the exact numbers.  From d it keeps the row sums of squares n(p) = ∑ r, d(p, r)²
  as a column.  The first result block is, at (p, q), max((n(p) + n(q)) − 2 · ∑ r, d(p, r) · d(q, r), 0): the column
  spread along rows, the same column turned into a row and spread along columns, and d times its own transpose.  The
  second result block is the column n of the projection by the other weight.
-/
import proofs.«163133_j77610059039275_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«163133_j77610059039275_1_alg».proof.Proof.LibPlainDot
import proofs.«163133_j77610059039275_1_alg».proof.Proof.LibKeepdims
import proofs.«163133_j77610059039275_1_alg».proof.Proof.LibRowSum
import proofs.«163133_j77610059039275_1_alg».proof.Proof.ProbeSpec

noncomputable section

open scoped BigOperators

namespace Cert.KernelIdeal.Body

open Cert.KernelIdeal Cert.KernelIdeal.Gen Idealize.ShloMosaic Idealize.ShloMosaic.ValueIdx

/-- Both matrix products of the body contract the left operand's columns with the right operand's rows. -/
theorem plain_proj : PlainDot.IsPlain dot_S512x768_S768x64_S512x64_1_0_0_1_n_n := ⟨rfl, rfl, rfl, rfl, rfl, rfl⟩
theorem plain_gram : PlainDot.IsPlain dot_S512x64_S64x512_S512x512_1_0_0_1_n_n := ⟨rfl, rfl, rfl, rfl, rfl, rfl⟩

/-! ## The body's stages -/

/-- The projected rows of the block: the token block, its unit axis dropped, times the weight. -/
def blockProj (x : FVec Ideal S1x512x768 .f32) (w : FVec Ideal S768x64 .f32) : FVec Ideal S512x64 .f32 :=
  matmul dot_S512x768_S768x64_S512x64_1_0_0_1_n_n none
    (truncf .bf16 (shapeCast S512x768 x shapeCasts_S1x512x768_S512x768) bitsLt_bf16_f32)
    (truncf .bf16 (shapeCast S768x64 w shapeCasts_S768x64_S768x64) bitsLt_bf16_f32)
    (constant S512x64 .f32 0x00000000#32)

/-- The row sums of squares of d, kept as a column. -/
def rowSq (d : FVec Ideal S512x64 .f32) : FVec Ideal S512x1 .f32 :=
  shapeCast S512x1 (multiReduction .add [1] S512 (mulf d d) 0x00000000#32 reduces_S512x64_S512 (.inl rfl) rfl) shapeCasts_S512_S512x1

/-- The inner-product form of the pairwise squared distances of the rows of d, clamped below at the zero word. -/
def gramClamp (d : FVec Ideal S512x64 .f32) : FVec Ideal S512x512 .f32 :=
  maximumf
    (subf
      (addf (broadcastTo S512x512 (rowSq d) broadcasts_S512x1_S512x512)
        (broadcastTo S512x512 (transpose S1x512 [1, 0] (rowSq d) transposes_S512x1_p1_0_S1x512) broadcasts_S1x512_S512x512))
      (mulf (broadcast S512x512 (Scalar.ofBits .f32 0x40000000#32))
        (matmul dot_S512x64_S64x512_S512x512_1_0_0_1_n_n (some .fp32) d
          (transpose S64x512 [1, 0] d transposes_S512x64_p1_0_S64x512) (constant S512x512 .f32 0x00000000#32))))
    (broadcast S512x512 (Scalar.ofBits .f32 0x00000000#32))

/-- The first store's value is the clamped form of the block's projection, under a leading unit axis. -/
theorem pay2_eq (x : FVec Ideal S1x512x768 .f32) (w : FVec Ideal S768x64 .f32) :
    k0_pay2 (F := Ideal) x w = shapeCast S1x512x512 (gramClamp (blockProj x w)) shapeCasts_S512x512_S1x512x512 := rfl

/-- The second store's value is the column of row sums of squares, under a leading unit axis. -/
theorem pay3_eq (x : FVec Ideal S1x512x768 .f32) (w : FVec Ideal S768x64 .f32) :
    k0_pay3 (F := Ideal) x w = shapeCast S1x512x1 (rowSq (blockProj x w)) shapeCasts_S512x1_S1x512x1 := rfl

/-! ## The stages read at an entry -/

/-- Entry (p, r) of the block's projection. -/
def rowProj (x : FVec Ideal S1x512x768 .f32) (w : FVec Ideal S768x64 .f32) (p : Fin 512) (r : Fin 64) : EReal :=
  ∑ k : Fin 768, x (ix3 (0 : Fin 1) p k) * w (ix2 k r)

theorem blockProj_apply (x : FVec Ideal S1x512x768 .f32) (w : FVec Ideal S768x64 .f32) (p : Fin 512) (r : Fin 64) :
    blockProj x w (ix2 p r) = rowProj x w p r := by
  unfold blockProj rowProj
  refine (PlainDot.matmul_zero_apply plain_proj none _ _ p r).trans ?_
  refine Finset.sum_congr rfl fun k _ => ?_
  have e1 : (truncf .bf16 (shapeCast S512x768 x shapeCasts_S1x512x768_S512x768) bitsLt_bf16_f32 : FVec Ideal S512x768 .bf16) (ix2 p k)
      = x (ix3 (0 : Fin 1) p k) := shapeCast_1ab_ab_apply x shapeCasts_S1x512x768_S512x768 p k
  have e2 : (truncf .bf16 (shapeCast S768x64 w shapeCasts_S768x64_S768x64) bitsLt_bf16_f32 : FVec Ideal S768x64 .bf16) (ix2 k r)
      = w (ix2 k r) := congrFun (shapeCast_self w shapeCasts_S768x64_S768x64) (ix2 k r)
  rw [e1, e2]

theorem rowSq_apply (d : FVec Ideal S512x64 .f32) (p : Fin 512) (u : Fin 1) :
    rowSq d (ix2 p u) = ∑ r : Fin 64, d (ix2 p r) * d (ix2 p r) := by
  unfold rowSq
  refine (KeepdimsLayout.shapeCast_a_a1_apply _ shapeCasts_S512_S512x1 p u).trans ?_
  exact RowSum.multiReduction_apply (mulf d d) 0x00000000#32 reduces_S512x64_S512 (.inl rfl) rfl p

theorem gramClamp_apply (d : FVec Ideal S512x64 .f32) (p q : Fin 512) :
    gramClamp d (ix2 p q)
      = max (((∑ r : Fin 64, d (ix2 p r) * d (ix2 p r)) + (∑ r : Fin 64, d (ix2 q r) * d (ix2 q r)))
          - ((2 : ℝ) : EReal) * (∑ r : Fin 64, d (ix2 p r) * d (ix2 q r))) 0 := by
  unfold gramClamp
  rw [maximumf_apply, subf_apply, addf_apply, mulf_apply, broadcast_apply, broadcast_apply,
    KeepdimsLayout.broadcastTo_a1_ab_apply, broadcastTo_1b_ab_apply, transpose_ix2_apply, rowSq_apply, rowSq_apply,
    PlainDot.matmul_zero_apply plain_gram]
  have eg : (∑ i : Fin 64, d (ix2 p i) * (transpose S64x512 [1, 0] d transposes_S512x64_p1_0_S64x512) (ix2 i q))
      = ∑ r : Fin 64, d (ix2 p r) * d (ix2 q r) :=
    Finset.sum_congr rfl fun r _ => by rw [transpose_ix2_apply]
  rw [eg]
  show max (_ - Ideal.ofBits .f32 0x40000000#32 * _) (Ideal.ofBits .f32 0x00000000#32) = _
  rw [Cert.Probe.ofBits_two, Ideal.ofBits_zero_f32]

/-! ## The two stored values at an entry of their blocks -/

/-- The first result block at (0, p, q). -/
theorem pay2_apply (x : FVec Ideal S1x512x768 .f32) (w : FVec Ideal S768x64 .f32) (u : Fin 1) (p q : Fin 512) :
    k0_pay2 (F := Ideal) x w (ix3 u p q)
      = max (((∑ r : Fin 64, rowProj x w p r * rowProj x w p r) + (∑ r : Fin 64, rowProj x w q r * rowProj x w q r))
          - ((2 : ℝ) : EReal) * (∑ r : Fin 64, rowProj x w p r * rowProj x w q r)) 0 := by
  rw [pay2_eq]
  refine (shapeCast_ab_1ab_apply _ shapeCasts_S512x512_S1x512x512 u p q).trans ?_
  rw [gramClamp_apply]
  simp only [blockProj_apply]

/-- The second result block at (0, p, 0). -/
theorem pay3_apply (x : FVec Ideal S1x512x768 .f32) (w : FVec Ideal S768x64 .f32) (u : Fin 1) (p : Fin 512) (v : Fin 1) :
    k0_pay3 (F := Ideal) x w (ix3 u p v) = ∑ r : Fin 64, rowProj x w p r * rowProj x w p r := by
  rw [pay3_eq]
  refine (shapeCast_ab_1ab_apply _ shapeCasts_S512x1_S1x512x1 u p v).trans ?_
  rw [rowSq_apply]
  simp only [blockProj_apply]

end Cert.KernelIdeal.Body

end
-- ==== Proof.KernelArrays.lean ====
/-
  The two arrays the kernel region leaves, as whole-array functions of the arrays it finds.

  The region runs over the 8 batch elements.  At element t it stages rows (t, ·, ·) of the tokens and the whole of each
  transposed weight, and writes back block (t, ·, ·) of each result.  So entry (b, i, j) of the first result array is
  the body's first stored value for batch element b at (i, j), and entry (b, l, 0) of the second is its second stored
  value at l.  The 8 blocks tile each result array, hence every entry is written, by the point t = b.
-/
import proofs.«163133_j77610059039275_1_alg».proof.Proof.Gen.KernelIdeal.Frame
import proofs.«163133_j77610059039275_1_alg».proof.Proof.KernelBody
import Idealize.ShloMosaic.Lib.Pipeline.Value
import Idealize.ShloMosaic.Lib.StableHlo.Run

noncomputable section

open scoped BigOperators

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Body

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The arrays the region finds -/

/-- The tokens, and the two transposed weights the host wrote before the region. -/
abbrev tok (c : Dev nD) : FVec Ideal S8x512x768 .f32 := V m c main_arg0
abbrev wDistT (c : Dev nD) : FVec Ideal S768x64 .f32 := V m c main_v0
abbrev wDepthT (c : Dev nD) : FVec Ideal S768x64 .f32 := V m c main_v1

theorem tok_eq (c : Dev nD) : tok m c = m ((c : Thread nD τ).loc main_arg0) := V_main_arg0 m c

theorem wDistT_eq (c : Dev nD) :
    wDistT m c = transpose S768x64 [1, 0] (m ((c : Thread nD τ).loc main_arg2)) transposes_S64x768_S768x64_1_0 := by
  show StableHlo.after hostOps0 (fun b => m (c, b)) (Proc.devRef .tc main_v0) = _
  after_results

theorem wDepthT_eq (c : Dev nD) :
    wDepthT m c = transpose S768x64 [1, 0] (m ((c : Thread nD τ).loc main_arg3)) transposes_S64x768_S768x64_1_0 := by
  show StableHlo.after hostOps0 (fun b => m (c, b)) (Proc.devRef .tc main_v1) = _
  after_results

/-! ## The whole-array functions -/

/-- Coordinate r of token l of batch element b projected by a transposed weight: ∑ k, x(b, l, k) · wT(k, r). -/
def projT (x : FVec Ideal S8x512x768 .f32) (wT : FVec Ideal S768x64 .f32) (b : Fin 8) (l : Fin 512) (r : Fin 64) : EReal :=
  ∑ k : Fin 768, x (ix3 b l k) * wT (ix2 k r)

/-- The first result array: the inner-product form of the squared distance of tokens i 1 and i 2 of batch element i 0,
    clamped below at zero. -/
def distArr (x : FVec Ideal S8x512x768 .f32) (wT : FVec Ideal S768x64 .f32) : FVec Ideal S8x512x512 .f32 := fun i =>
  max (((∑ r : Fin 64, projT x wT (i 0) (i 1) r * projT x wT (i 0) (i 1) r)
        + (∑ r : Fin 64, projT x wT (i 0) (i 2) r * projT x wT (i 0) (i 2) r))
      - ((2 : ℝ) : EReal) * (∑ r : Fin 64, projT x wT (i 0) (i 1) r * projT x wT (i 0) (i 2) r)) 0

/-- The second result array: the squared norm of the projected token i 1 of batch element i 0, in a unit last axis. -/
def normArr (x : FVec Ideal S8x512x768 .f32) (wT : FVec Ideal S768x64 .f32) : FVec Ideal S8x512x1 .f32 := fun i =>
  ∑ r : Fin 64, projT x wT (i 0) (i 1) r * projT x wT (i 0) (i 1) r

/-! ## One block against the whole array, over variables -/

/-- A token block that is rows (b, ·, ·) of the array projects to the array's projection at b. -/
theorem rowProj_eq (X : FVec Ideal S8x512x768 .f32) (WT : FVec Ideal S768x64 .f32) (b : Fin 8)
    (x : FVec Ideal S1x512x768 .f32) (w : FVec Ideal S768x64 .f32)
    (hx : ∀ (p : Fin 512) (k : Fin 768), x (ix3 (0 : Fin 1) p k) = X (ix3 b p k)) (hw : w = WT) (p : Fin 512) (r : Fin 64) :
    rowProj x w p r = projT X WT b p r := by
  unfold rowProj projT
  exact Finset.sum_congr rfl fun k _ => by rw [hx, hw]

/-- The body's first stored value for such a block, at an entry, is the first result array's entry in batch element b. -/
theorem block_dist (X : FVec Ideal S8x512x768 .f32) (WT : FVec Ideal S768x64 .f32) (b : Fin 8)
    (x : FVec Ideal S1x512x768 .f32) (w : FVec Ideal S768x64 .f32)
    (hx : ∀ (p : Fin 512) (k : Fin 768), x (ix3 (0 : Fin 1) p k) = X (ix3 b p k)) (hw : w = WT) (j : S1x512x512.Idx) :
    k0_pay2 (F := Ideal) x w j = distArr X WT (ix3 b (j 1) (j 2)) := by
  obtain ⟨u, p, q, rfl⟩ : ∃ (u : Fin 1) (p q : Fin 512), j = ix3 u p q := ⟨j 0, j 1, j 2, eq_ix3 j⟩
  rw [pay2_apply]
  unfold distArr
  simp only [rowProj_eq X WT b x w hx hw]

/-- The body's second stored value for such a block, at an entry, is the second result array's entry. -/
theorem block_norm (X : FVec Ideal S8x512x768 .f32) (WT : FVec Ideal S768x64 .f32) (b : Fin 8)
    (x : FVec Ideal S1x512x768 .f32) (w : FVec Ideal S768x64 .f32)
    (hx : ∀ (p : Fin 512) (k : Fin 768), x (ix3 (0 : Fin 1) p k) = X (ix3 b p k)) (hw : w = WT) (j : S1x512x1.Idx) :
    k0_pay3 (F := Ideal) x w j = normArr X WT (ix3 b (j 1) (0 : Fin 1)) := by
  obtain ⟨u, p, v, rfl⟩ : ∃ (u : Fin 1) (p : Fin 512) (v : Fin 1), j = ix3 u p v := ⟨j 0, j 1, j 2, eq_ix3 j⟩
  rw [pay3_apply]
  unfold normArr
  simp only [rowProj_eq X WT b x w hx hw]

/-! ## The index maps over the grid, and the staged blocks -/

theorem N8 : cfg0.N = 8 := N_0

/-- The batch element of a grid point. -/
abbrev bOf (t : Fin cfg0.N) : Fin 8 := ⟨t.val, lt_of_lt_of_eq t.isLt N8⟩

/-- Window by window, the block index at point t: the token and result windows move along the batch axis with t, the
    weight windows stay at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The token block at point t is rows (t, ·, ·) of the token array. -/
theorem tokBlock (c : Dev nD) (t : Fin cfg0.N) (p : Fin 512) (k : Fin 768) :
    (iblk m c 0 t : FVec Ideal S1x512x768 .f32) (ix3 (0 : Fin 1) p k) = tok m c (ix3 (bOf t) p k) := by
  obtain ⟨e0, e1, e2, -⟩ := idx_facts t
  unfold iblk
  rw [View.read_apply]
  show V m c main_arg0 _ = V m c main_arg0 _
  refine congrArg _ (funext fun a => Fin.ext ?_)
  match a with
  | ⟨0, _⟩ => show win0_0.index t (0 : Fin 3) * 1 + 1 * 0 = t.val; omega
  | ⟨1, _⟩ => show win0_0.index t (1 : Fin 3) * 512 + 1 * p.val = p.val; omega
  | ⟨2, _⟩ => show win0_0.index t (2 : Fin 3) * 768 + 1 * k.val = k.val; omega

/-- Each weight block is the whole transposed weight, at every point. -/
theorem wDistBlock (c : Dev nD) (t : Fin cfg0.N) : (iblk m c 1 t : FVec Ideal S768x64 .f32) = wDistT m c := by
  obtain ⟨-, -, -, e0, e1, -⟩ := idx_facts t
  funext y
  unfold iblk
  rw [View.read_apply]
  show V m c main_v0 _ = V m c main_v0 _
  refine congrArg _ (funext fun a => Fin.ext ?_)
  match a with
  | ⟨0, _⟩ => show win0_1.index t (0 : Fin 2) * 768 + 1 * (y 0).val = (y 0).val; omega
  | ⟨1, _⟩ => show win0_1.index t (1 : Fin 2) * 64 + 1 * (y 1).val = (y 1).val; omega

theorem wDepthBlock (c : Dev nD) (t : Fin cfg0.N) : (iblk m c 2 t : FVec Ideal S768x64 .f32) = wDepthT m c := by
  obtain ⟨-, -, -, -, -, e0, e1, -⟩ := idx_facts t
  funext y
  unfold iblk
  rw [View.read_apply]
  show V m c main_v1 _ = V m c main_v1 _
  refine congrArg _ (funext fun a => Fin.ext ?_)
  match a with
  | ⟨0, _⟩ => show win0_2.index t (0 : Fin 2) * 768 + 1 * (y 0).val = (y 0).val; omega
  | ⟨1, _⟩ => show win0_2.index t (1 : Fin 2) * 64 + 1 * (y 1).val = (y 1).val; omega

/-! ## What each point writes back -/

/-- Point t writes back block t of the first result array. -/
theorem flushed_dist (c : Dev nD) (t : Fin cfg0.N) :
    (dats m 0 c).flushed 3 t = ((cfg0.win 3).blk t).view.read (Elt Ideal) (distArr (tok m c) (wDistT m c)) := by
  show (cfg0.win 3).cut (grid0.coords t) ((dats m 0 c).after 3 t) = _
  rw [after0_3]
  unfold out0_3
  rw [View.canon_unit_zero hz3]
  simp only [View.ld_unit_zero (S := S1x512x768) hz3, View.ld_unit_zero (S := S768x64) hz2]
  obtain ⟨-, -, -, -, -, -, -, e0, e1, e2, -⟩ := idx_facts t
  funext j
  rw [View.read_apply]
  refine (block_dist (tok m c) (wDistT m c) (bOf t) (iblk m c 0 t) (iblk m c 1 t) (tokBlock m c t) (wDistBlock m c t) j).trans ?_
  refine congrArg _ (funext fun a => Fin.ext ?_)
  have hu : (j 0).val < 1 := (j 0).isLt
  match a with
  | ⟨0, _⟩ => show t.val = win0_3.index t (0 : Fin 3) * 1 + 1 * (j 0).val; omega
  | ⟨1, _⟩ => show (j 1).val = win0_3.index t (1 : Fin 3) * 512 + 1 * (j 1).val; omega
  | ⟨2, _⟩ => show (j 2).val = win0_3.index t (2 : Fin 3) * 512 + 1 * (j 2).val; omega

/-- Point t writes back block t of the second result array. -/
theorem flushed_norm (c : Dev nD) (t : Fin cfg0.N) :
    (dats m 0 c).flushed 4 t = ((cfg0.win 4).blk t).view.read (Elt Ideal) (normArr (tok m c) (wDepthT m c)) := by
  show (cfg0.win 4).cut (grid0.coords t) ((dats m 0 c).after 4 t) = _
  rw [after0_4]
  unfold out0_4
  rw [View.canon_unit_zero hz3]
  simp only [View.ld_unit_zero (S := S1x512x768) hz3, View.ld_unit_zero (S := S768x64) hz2]
  obtain ⟨-, -, -, -, -, -, -, -, -, -, e0, e1, e2⟩ := idx_facts t
  funext j
  rw [View.read_apply]
  refine (block_norm (tok m c) (wDepthT m c) (bOf t) (iblk m c 0 t) (iblk m c 2 t) (tokBlock m c t) (wDepthBlock m c t) j).trans ?_
  refine congrArg _ (funext fun a => Fin.ext ?_)
  have hu : (j 0).val < 1 := (j 0).isLt
  have hv : (j 2).val < 1 := (j 2).isLt
  match a with
  | ⟨0, _⟩ => show t.val = win0_4.index t (0 : Fin 3) * 1 + 1 * (j 0).val; omega
  | ⟨1, _⟩ => show (j 1).val = win0_4.index t (1 : Fin 3) * 512 + 1 * (j 1).val; omega
  | ⟨2, _⟩ => show 0 = win0_4.index t (2 : Fin 3) * 1 + 1 * (j 2).val; omega

/-! ## The blocks tile the result arrays -/

theorem mem_blk_dist (t : Fin cfg0.N) (i : S8x512x512.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v2_0).slice (win0_3.rect t)).set ↔ _
  rw [View.set_slice_whole, Rect.mem_set_unit]
  exact Iff.rfl

theorem mem_blk_norm (t : Fin cfg0.N) (i : S8x512x1.Idx) :
    i ∈ ((cfg0.win 4).blk t).view.set ↔ ∀ a : Fin 3, win0_4.index t a * S1x512x1.size a ≤ (i a).val
      ∧ (i a).val < win0_4.index t a * S1x512x1.size a + S1x512x1.size a := by
  show i ∈ ((View.whole main_v2_1).slice (win0_4.rect t)).set ↔ _
  rw [View.set_slice_whole, Rect.mem_set_unit]
  exact Iff.rfl

/-- The point of a batch element. -/
abbrev tOf (b : Fin 8) : Fin cfg0.N := ⟨b.val, lt_of_lt_of_eq b.isLt N8.symm⟩

theorem cover_dist (i : S8x512x512.Idx) :
    ∃ t : Fin cfg0.N, (cfg0.win 3).flush t = true ∧ i ∈ ((cfg0.win 3).blk t).view.set := by
  refine ⟨tOf (i 0), flush0_3 _, ?_⟩
  rw [mem_blk_dist]
  obtain ⟨-, -, -, -, -, -, -, e0, e1, e2, -⟩ := idx_facts (tOf (i 0))
  have e0' : win0_3.index (tOf (i 0)) (0 : Fin 3) = (i 0).val := e0
  have h1 : (i 1).val < 512 := (i 1).isLt
  have h2 : (i 2).val < 512 := (i 2).isLt
  intro a
  match a with
  | ⟨0, _⟩ => show win0_3.index (tOf (i 0)) (0 : Fin 3) * 1 ≤ (i 0).val ∧ (i 0).val < win0_3.index (tOf (i 0)) (0 : Fin 3) * 1 + 1; omega
  | ⟨1, _⟩ => show win0_3.index (tOf (i 0)) (1 : Fin 3) * 512 ≤ (i 1).val ∧ (i 1).val < win0_3.index (tOf (i 0)) (1 : Fin 3) * 512 + 512; omega
  | ⟨2, _⟩ => show win0_3.index (tOf (i 0)) (2 : Fin 3) * 512 ≤ (i 2).val ∧ (i 2).val < win0_3.index (tOf (i 0)) (2 : Fin 3) * 512 + 512; omega

theorem cover_norm (i : S8x512x1.Idx) :
    ∃ t : Fin cfg0.N, (cfg0.win 4).flush t = true ∧ i ∈ ((cfg0.win 4).blk t).view.set := by
  refine ⟨tOf (i 0), flush0_4 _, ?_⟩
  rw [mem_blk_norm]
  obtain ⟨-, -, -, -, -, -, -, -, -, -, e0, e1, e2⟩ := idx_facts (tOf (i 0))
  have e0' : win0_4.index (tOf (i 0)) (0 : Fin 3) = (i 0).val := e0
  have h1 : (i 1).val < 512 := (i 1).isLt
  have h2 : (i 2).val < 1 := (i 2).isLt
  intro a
  match a with
  | ⟨0, _⟩ => show win0_4.index (tOf (i 0)) (0 : Fin 3) * 1 ≤ (i 0).val ∧ (i 0).val < win0_4.index (tOf (i 0)) (0 : Fin 3) * 1 + 1; omega
  | ⟨1, _⟩ => show win0_4.index (tOf (i 0)) (1 : Fin 3) * 512 ≤ (i 1).val ∧ (i 1).val < win0_4.index (tOf (i 0)) (1 : Fin 3) * 512 + 512; omega
  | ⟨2, _⟩ => show win0_4.index (tOf (i 0)) (2 : Fin 3) * 1 ≤ (i 2).val ∧ (i 2).val < win0_4.index (tOf (i 0)) (2 : Fin 3) * 1 + 1; omega

/-! ## The result arrays after the region -/

theorem final_dist (c : Dev nD) : (dats m 0 c).arrAt 3 cfg0.N = distArr (tok m c) (wDistT m c) :=
  (dats m 0 c).arrAt_eq_of_cover 3 _ (fun t _ => flushed_dist m c t) cover_dist

theorem final_norm (c : Dev nD) : (dats m 0 c).arrAt 4 cfg0.N = normArr (tok m c) (wDepthT m c) :=
  (dats m 0 c).arrAt_eq_of_cover 4 _ (fun t _ => flushed_norm m c t) cover_norm

end Cert.KernelIdeal.Arrays

end
-- ==== Proof.KernelRun.lean ====
/-
  The kernel program's run, read: each of its three results as a function of the argument arrays.

  After the region the host drops the unit last axis of the second result array, and computes the third result from
  the sentence embeddings alone: each embedding is centred by its mean over the 768 features, divided by the square
  root of its variance plus a small constant, multiplied by the transposed label weights and shifted by the bias.
  None of these lines touches the region's arrays or the arguments, so the first result is the region's first array,
  the second is the region's second array without its unit axis, and the third is that function of three arguments.
-/
import proofs.«163133_j77610059039275_1_alg».proof.Proof.KernelArrays

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Arrays

/-- The label scores of the normalised sentence embeddings: with μ the mean and σ² the mean squared deviation of an
    embedding x1(b, 0, ·) over its 768 features, entry (b, n) is ∑ k, (x1(b, 0, k) − μ) / √(σ² + ε) · x4(n, k) + x5(n). -/
def headOf (x1 : FVec Ideal S8x1x768 .f32) (x4 : FVec Ideal S74x768 .f32) (x5 : FVec Ideal S74 .f32) : FVec Ideal S8x74 .f32 :=
  let zero : FVec Ideal S_ .f32 := constant (F := Ideal) S_ .f32 0x00000000#32
  let count : FVec Ideal S8x1x1 .f32 := broadcastInDim S8x1x1 ![] bcast_S_S8x1x1 (constant (F := Ideal) S_ .f32 0x44400000#32)
  let mean : FVec Ideal S8x1x1 .f32 :=
    Host.divf (broadcastInDim S8x1x1 ![0, 1] bcast_S8x1_S8x1x1_0_1 (Host.reduceAdd x1 zero reducesTo_S8x1x768_S8x1_d2 h_S_)) count
  let centred : FVec Ideal S8x1x768 .f32 := subf x1 (broadcastInDim S8x1x768 ![0, 1, 2] bcast_S8x1x1_S8x1x768_0_1_2 mean)
  let variance : FVec Ideal S8x1x1 .f32 :=
    Host.divf (broadcastInDim S8x1x1 ![0, 1] bcast_S8x1_S8x1x1_0_1
      (Host.reduceAdd (mulf centred centred) zero reducesTo_S8x1x768_S8x1_d2 h_S_)) count
  let spread : FVec Ideal S8x1x1 .f32 :=
    Host.sqrt (addf variance (broadcastInDim S8x1x1 ![] bcast_S_S8x1x1 (constant (F := Ideal) S_ .f32 0x3727C5AC#32)))
  addf
    (Host.dotGeneral dot_S8x768_S768x74_S8x74_1_0_0_1_n_n none
      (shapeCast S8x768 (Host.divf centred (broadcastInDim S8x1x768 ![0, 1, 2] bcast_S8x1x1_S8x1x768_0_1_2 spread))
        shapeCasts_S8x1x768_S8x768)
      (transpose S768x74 [1, 0] x4 transposes_S74x768_S768x74_1_0))
    (broadcastInDim S8x74 ![0, 1] bcast_S1x74_S8x74_0_1 (broadcastInDim S1x74 ![1] bcast_S74_S1x74_1 x5))

variable (m : (ℓ : Loc nD τ sig) → Buf (Elt Ideal) ℓ) (ρ : Dev nD → PrngReg)

/-- After the host's lines the second result is the region's second array with its unit last axis dropped. -/
theorem tail_norm (c : Dev nD) :
    Pipeline.afterTail₀ cfgs (dats m) 0 (V0 m) [hostOps1] c main_v3
      = shapeCast S8x512 (normArr (tok m c) (wDepthT m c)) shapeCasts_S8x512x1_S8x512 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2_1)
      = normArr (tok m c) (wDepthT m c) :=
    (Pipeline.withArrays_arr spec0 launch0.win.arr_inj c _ _ 4).trans (final_norm m c)
  rw [e]
  rfl

/-- After the host's lines the third result is the label scores of the sentence embeddings as launched. -/
theorem tail_head (c : Dev nD) :
    Pipeline.afterTail₀ cfgs (dats m) 0 (V0 m) [hostOps1] c main_v27
      = headOf (m ((c : Thread nD τ).loc main_arg1)) (m ((c : Thread nD τ).loc main_arg4)) (m ((c : Thread nD τ).loc main_arg5)) := by
  unfold Pipeline.afterTail₀
  show StableHlo.after hostOps1 _ (Proc.devRef .tc main_v27) = _
  after_results_simp
  rw [Pipeline.withArrays_of_ne _ c (V0 m c) _ main_arg1 (by exact (by decide : ∀ w, Pipeline.arrRef spec0 w ≠ main_arg1)),
    Pipeline.withArrays_of_ne _ c (V0 m c) _ main_arg4 (by exact (by decide : ∀ w, Pipeline.arrRef spec0 w ≠ main_arg4)),
    Pipeline.withArrays_of_ne _ c (V0 m c) _ main_arg5 (by exact (by decide : ∀ w, Pipeline.arrRef spec0 w ≠ main_arg5))]
  rw [show V0 m c (Proc.devRef .tc main_arg1) = m ((c : Thread nD τ).loc main_arg1) from V_main_arg1 m c,
    show V0 m c (Proc.devRef .tc main_arg4) = m ((c : Thread nD τ).loc main_arg4) from V_main_arg4 m c,
    show V0 m c (Proc.devRef .tc main_arg5) = m ((c : Thread nD τ).loc main_arg5) from V_main_arg5 m c]
  rfl

/-- Every weakly fair execution of the kernel program ends with its three results at these functions of the arguments
    and with the arguments as launched. -/
theorem run : θ_run defs (onTc (τ := τ) (main (F := Ideal))) ⟨m, fun _ => 0, ρ⟩ fun r => ∀ c : Dev nD,
      r.2.mem ((c.tc : Thread nD τ).loc main_v2_0) = distArr (tok m c) (wDistT m c)
      ∧ r.2.mem ((c.tc : Thread nD τ).loc main_v3) = shapeCast S8x512 (normArr (tok m c) (wDepthT m c)) shapeCasts_S8x512x1_S8x512
      ∧ r.2.mem ((c.tc : Thread nD τ).loc main_v27)
          = headOf (m ((c : Thread nD τ).loc main_arg1)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).1 3).trans (final_dist m c),
      ((h c).2 main_v3 (Pipeline.mem_restRefs_of main_v3 (by decide) (by decide))).trans (tail_norm m c),
      ((h c).2 main_v27 (Pipeline.mem_restRefs_of main_v27 (by decide) (by decide))).trans (tail_head m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.Bridge.lean ====
/-
  The region's two arrays, over the transposed weights the host wrote, are the specification's functions of the
  weights as given.

  The host transposes each 64 x 768 weight before the region, and the kernel contracts the tokens' features with the
  rows of the transposed weight: ∑ k, x(b, l, k) · wᵀ(k, r) with wᵀ(k, r) = w(r, k), which is the projection
  ∑ k, x(b, l, k) · w(r, k).  Dropping the unit last axis of the second array reads entry (b, l) at (b, l, 0).
-/
import proofs.«163133_j77610059039275_1_alg».proof.Proof.KernelArrays
import proofs.«163133_j77610059039275_1_alg».proof.Proof.ProbeSpec
import Idealize.ShloMosaic.Lib.ValueLayout

noncomputable section

open scoped BigOperators

open Idealize.ShloMosaic Idealize.ShloMosaic.ValueIdx

namespace Cert.KernelIdeal.Bridge

open Cert.KernelIdeal Cert.KernelIdeal.Gen Cert.KernelIdeal.Arrays

/-- Contracting with the transposed weight is projecting by the weight. -/
theorem projT_transpose (x : FVec Ideal S8x512x768 .f32) (w : FVec Ideal S64x768 .f32) :
    projT x (transpose S768x64 [1, 0] w transposes_S64x768_S768x64_1_0) = Cert.Probe.proj x w := by
  funext b l r
  unfold projT Cert.Probe.proj
  exact Finset.sum_congr rfl fun k _ => by rw [transpose_ix2_apply]

/-- The region's first array is the inner-product form of the squared distances. -/
theorem distArr_eq (x : FVec Ideal S8x512x768 .f32) (w : FVec Ideal S64x768 .f32) :
    distArr x (transpose S768x64 [1, 0] w transposes_S64x768_S768x64_1_0) = Cert.Probe.sqDistGram x w := by
  funext i
  unfold distArr Cert.Probe.sqDistGram
  rw [projT_transpose]

/-- The region's second array without its unit last axis is the squared norms. -/
theorem normArr_squeeze (x : FVec Ideal S8x512x768 .f32) (w : FVec Ideal S64x768 .f32) :
    shapeCast S8x512 (normArr x (transpose S768x64 [1, 0] w transposes_S64x768_S768x64_1_0)) shapeCasts_S8x512x1_S8x512
      = Cert.Probe.sqNorm x w := by
  funext i
  obtain ⟨b, l, rfl⟩ : ∃ (b : Fin 8) (l : Fin 512), i = ix2 b l := ⟨i 0, i 1, eq_ix2 i⟩
  refine (shapeCast_apply _ shapeCasts_S8x512x1_S8x512 (ix2 b l) (ix3 b l (0 : Fin 1)) ?_).trans ?_
  · rw [Shape.rowMajor_val_three, Shape.rowMajor_val_two]
    show (b.val * 512 + l.val) * 1 + 0 = b.val * 512 + l.val
    omega
  · unfold normArr Cert.Probe.sqNorm
    rw [projT_transpose]

end Cert.KernelIdeal.Bridge

end
-- ==== Proof.RefValue.lean ====
/-
  The reference's first two results are the squared distances and squared norms of the specification.

  The reference projects every token by the weight (a contraction over the 768 features), spreads the projection once
  along a new second token axis and once along a new first one, subtracts, squares and sums over the 64 coordinates:
  entry (b, i, j) is the zero word plus ∑ r, (d(b, i, r) − d(b, j, r))².  Its squared norms are the zero word plus
  ∑ r, d(b, l, r)² for the projection by the other weight.  The zero word denotes 0.
-/
import proofs.«163133_j77610059039275_1_alg».proof.Proof.Gen.ReferenceIdeal.Read
import proofs.«163133_j77610059039275_1_alg».proof.Proof.ProbeSpec

noncomputable section

open scoped BigOperators

namespace Cert.ReferenceIdeal.RefValue

open Cert.ReferenceIdeal Cert.ReferenceIdeal.Read Idealize.ShloMosaic Idealize.ShloMosaic.ValueIdx

/-- The reference's projection by the first weight, at an index, is the specification's. -/
theorem dist_proj (x0 : (⟨S8x512x768, .f32⟩ : BufTy).Contents (Elt Ideal)) (x2 : (⟨S64x768, .f32⟩ : BufTy).Contents (Elt Ideal))
    (j : S8x512x64.Idx) : val_main_v0 (F := Ideal) x0 x2 j = Cert.Probe.proj x0 x2 (j 0) (j 1) (j 2) := by
  rw [val_main_v0_apply]
  unfold Cert.Probe.proj
  refine Finset.sum_congr rfl fun k _ => ?_
  have el : lidx_main_v0 j k = ix3 (j 0) (j 1) k := funext fun a => Fin.ext (by
    match a with | ⟨0, _⟩ => rfl | ⟨1, _⟩ => rfl | ⟨2, _⟩ => rfl)
  have er : ridx_main_v0 j k = ix2 (j 2) k := funext fun a => Fin.ext (by
    match a with | ⟨0, _⟩ => rfl | ⟨1, _⟩ => rfl)
  rw [el, er]
  rfl

/-- The same for the projection by the second weight. -/
theorem depth_proj (x0 : (⟨S8x512x768, .f32⟩ : BufTy).Contents (Elt Ideal)) (x3 : (⟨S64x768, .f32⟩ : BufTy).Contents (Elt Ideal))
    (j : S8x512x64.Idx) : val_main_v8 (F := Ideal) x0 x3 j = Cert.Probe.proj x0 x3 (j 0) (j 1) (j 2) := by
  rw [val_main_v8_apply]
  unfold Cert.Probe.proj
  refine Finset.sum_congr rfl fun k _ => ?_
  have el : lidx_main_v8 j k = ix3 (j 0) (j 1) k := funext fun a => Fin.ext (by
    match a with | ⟨0, _⟩ => rfl | ⟨1, _⟩ => rfl | ⟨2, _⟩ => rfl)
  have er : ridx_main_v8 j k = ix2 (j 2) k := funext fun a => Fin.ext (by
    match a with | ⟨0, _⟩ => rfl | ⟨1, _⟩ => rfl)
  rw [el, er]
  rfl

/-- The reference's first result is the sum of squared differences of the projected tokens. -/
theorem sqDist_eq (x0 : (⟨S8x512x768, .f32⟩ : BufTy).Contents (Elt Ideal)) (x2 : (⟨S64x768, .f32⟩ : BufTy).Contents (Elt Ideal)) :
    val_main_v7 (F := Ideal) x0 x2 = Cert.Probe.sqDist x0 x2 := by
  funext i
  rw [val_main_v7_apply, val_main_cst_apply]
  show Ideal.ofBits .f32 0x00000000#32 + _ = _
  rw [Ideal.ofBits_zero_f32, zero_add]
  unfold Cert.Probe.sqDist
  refine Finset.sum_congr rfl fun r _ => ?_
  rw [val_main_v6_apply, val_main_v5_apply, val_main_v3_apply, val_main_v4_apply, val_main_v1_apply, val_main_v2_apply,
    dist_proj, dist_proj]
  rfl

/-- The reference's second result is the sum of squares of the projected token. -/
theorem sqNorm_eq (x0 : (⟨S8x512x768, .f32⟩ : BufTy).Contents (Elt Ideal)) (x3 : (⟨S64x768, .f32⟩ : BufTy).Contents (Elt Ideal)) :
    val_main_v10 (F := Ideal) x0 x3 = Cert.Probe.sqNorm x0 x3 := by
  funext i
  rw [val_main_v10_apply, val_main_cst_0_apply]
  show Ideal.ofBits .f32 0x00000000#32 + _ = _
  rw [Ideal.ofBits_zero_f32, zero_add]
  unfold Cert.Probe.sqNorm
  refine Finset.sum_congr rfl fun r _ => ?_
  rw [val_main_v9_apply, depth_proj]
  rfl

end Cert.ReferenceIdeal.RefValue

end
-- ==== Proof.FiniteInputs.lean ====
/-
  What the precondition says of the tokens and of the first weight: every entry is a real number.

  The precondition is the conjunction, over the six inputs, of "every entry x has |x| < +∞".  Over the extended reals
  |x| = max x (−x) is +∞ exactly at the two infinities, so an entry that passes the test is a real number.  The law
  that joins the two programs' squared distances needs this of the tokens and of the first weight only.
-/
import proofs.«163133_j77610059039275_1_alg».proof.Pre_finite_inputs
import Idealize.ShloMosaic.Lib.ReduceAll
import Idealize.ShloMosaic.Lib.ValueIdx
import Idealize.ShloMosaic.PureOps.Ideal.Laws
import proofs.«163133_j77610059039275_1_alg».proof.Proof.LibRealValued

noncomputable section

namespace Cert.Pre_finite_inputs.Decode

open Idealize.ShloMosaic Cert.Pre_finite_inputs Cert.RealValued

variable [Facts]
open Facts

/-- The scalar shape has one index. -/
instance : Subsingleton S_.Idx := ⟨fun a b => funext fun d => d.elim0⟩

/-- The float word of +∞ denotes the top element. -/
theorem ofBits_inf : Ideal.ofBits .f32 0x7F800000#32 = (⊤ : EReal) := by
  simp [Ideal.ofBits, Ideal.ieee]

/-- An extended real whose absolute value is below +∞ is a real number. -/
theorem isReal_of_abs_lt_top (x : EReal) (h : Ideal.cmp .olt (max x (-x)) (⊤ : EReal) = 1#1) : IsReal x := by
  induction x using EReal.rec with
  | bot => simp [Ideal.cmp] at h
  | coe r => exact ⟨r, rfl⟩
  | top => simp [Ideal.cmp] at h

/-- One input's test, passed at every entry, makes every entry real. -/
theorem isReal_of_test {s : Shape} (a : FVec Ideal s .f32) (hb : S_.BroadcastsInDim s (![] : Fin 0 → Fin s.rank))
    (i : s.Idx)
    (h : cmpf .olt (Host.absf a) (broadcastInDim s ![] hb (constant (F := Ideal) S_ .f32 0x7F800000#32)) i = 1#1) :
    IsReal (a i) := by
  refine isReal_of_abs_lt_top (a i) ?_
  rw [← ofBits_inf]
  exact h

/-- Under the precondition the tokens and the first weight hold real numbers. -/
theorem tokens_and_weight_real (a0 : FVec Ideal S8x512x768 .f32) (a1 : FVec Ideal S8x1x768 .f32) (a2 : FVec Ideal S64x768 .f32)
    (a3 : FVec Ideal S64x768 .f32) (a4 : FVec Ideal S74x768 .f32) (a5 : FVec Ideal S74 .f32)
    (h : fn (F := Ideal) a0 a1 a2 a3 a4 a5 = fun _ => 1#1) : (∀ i, IsReal (a0 i)) ∧ (∀ i, IsReal (a2 i)) := by
  have h0 := congrFun h ValueIdx.ix0
  dsimp only [fn, fn_part1] at h0
  obtain ⟨h1, -⟩ := IntOp.andi_eq_one.mp h0
  obtain ⟨h2, -⟩ := IntOp.andi_eq_one.mp h1
  obtain ⟨h3, -⟩ := IntOp.andi_eq_one.mp h2
  obtain ⟨h4, h12⟩ := IntOp.andi_eq_one.mp h3
  obtain ⟨h3', -⟩ := IntOp.andi_eq_one.mp h4
  exact ⟨fun i => isReal_of_test a0 bcast_S_S8x512x768 i (Host.reduce_andi_all _ _ _ _ _ h3' i),
    fun i => isReal_of_test a2 bcast_S_S64x768 i (Host.reduce_andi_all _ _ _ _ _ h12 i)⟩

end Cert.Pre_finite_inputs.Decode

end
-- ==== Proof.lean ====
/-
  The kernel and its reference compute the same three results over the extended reals.

  Both programs project each of the 8 x 512 tokens (768 features) to 64 coordinates by one weight and to 64 by another.
  The reference returns, for every batch element and pair of tokens, the sum over the coordinates of the squared
  differences of the first projections; for every token the sum of squares of its second projection; and the label
  scores of the normalised sentence embeddings.  The kernel computes the first as
  max((⟨dᵢ, dᵢ⟩ + ⟨dⱼ, dⱼ⟩) − 2⟨dᵢ, dⱼ⟩, 0), batch element by batch element; the second the same way as the reference, in
  a unit last axis the host then drops; the third with the very operations of the reference.
  The first results agree because, the inputs being finite, every projection is a real number: on real numbers the
  square of a difference expands (the distributive law, which fails at the infinities) and a sum of squares is
  non-negative, so the clamp is the identity.  The second and third need no hypothesis on the inputs.
  The kernel's idealization rewrote no operation, so there is nothing to preserve.
-/
import proofs.«163133_j77610059039275_1_alg».proof.Defs
import proofs.«163133_j77610059039275_1_alg».proof.Proof.Gen.Kernel
import proofs.«163133_j77610059039275_1_alg».proof.Proof.Gen.Kernel.Skeleton
import proofs.«163133_j77610059039275_1_alg».proof.Proof.Gen.Kernel.Launch
import proofs.«163133_j77610059039275_1_alg».proof.Proof.Gen.Kernel.Points
import proofs.«163133_j77610059039275_1_alg».proof.Proof.Gen.Kernel.Frame
import proofs.«163133_j77610059039275_1_alg».proof.Proof.Gen.KernelIdeal
import proofs.«163133_j77610059039275_1_alg».proof.Proof.Gen.KernelIdeal.Skeleton
import proofs.«163133_j77610059039275_1_alg».proof.Proof.Gen.KernelIdeal.Launch
import proofs.«163133_j77610059039275_1_alg».proof.Proof.Gen.KernelIdeal.Points
import proofs.«163133_j77610059039275_1_alg».proof.Proof.Gen.KernelIdeal.Frame
import proofs.«163133_j77610059039275_1_alg».proof.Proof.Gen.ReferenceIdeal
import proofs.«163133_j77610059039275_1_alg».proof.Proof.Gen.Pre_finite_inputs
import proofs.«163133_j77610059039275_1_alg».proof.Proof.Gen.ReferenceIdeal.Run
import proofs.«163133_j77610059039275_1_alg».proof.Proof.Gen.ReferenceIdeal.Read
import proofs.«163133_j77610059039275_1_alg».proof.Proof.KernelRun
import proofs.«163133_j77610059039275_1_alg».proof.Proof.Bridge
import proofs.«163133_j77610059039275_1_alg».proof.Proof.RefValue
import proofs.«163133_j77610059039275_1_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: it runs, and writes none of its arguments. -/
theorem frame_ri : Cert.frame_ReferenceIdeal := fun m ρ _ =>
  (θ_run Cert.ReferenceIdeal.defs _ _).mono (fun _ h c => (h c).2.2.2) (Cert.ReferenceIdeal.Value.run (F := Ideal) m ρ)

/-- The reference's label scores are the kernel program's: the same operations on the same three arguments. -/
theorem head_eq (x1 : FVec Ideal Cert.KernelIdeal.S8x1x768 .f32) (x4 : FVec Ideal Cert.KernelIdeal.S74x768 .f32)
    (x5 : FVec Ideal Cert.KernelIdeal.S74 .f32) :
    Cert.ReferenceIdeal.Read.val_main_v34 (F := Ideal) x1 x4 x5 = Cert.KernelIdeal.Run.headOf x1 x4 x5 := rfl

/-- From memories agreeing on the arguments, of which the precondition holds, both programs end with the squared
    distances, the squared norms and the label scores of the specification. -/
theorem algebraic : Cert.algebraic_KernelIdeal_ReferenceIdeal := by
  intro m ρ m' ρ' hpre hagree
  refine ⟨fun c => Cert.Probe.sqDist (m ((c.tc : Thread Cert.KernelIdeal.nD Cert.KernelIdeal.τ).loc Cert.KernelIdeal.main_arg0))
        (m ((c.tc : Thread Cert.KernelIdeal.nD Cert.KernelIdeal.τ).loc Cert.KernelIdeal.main_arg2)),
    fun c => Cert.Probe.sqNorm (m ((c.tc : Thread Cert.KernelIdeal.nD Cert.KernelIdeal.τ).loc Cert.KernelIdeal.main_arg0))
        (m ((c.tc : Thread Cert.KernelIdeal.nD Cert.KernelIdeal.τ).loc Cert.KernelIdeal.main_arg3)),
    fun c => Cert.KernelIdeal.Run.headOf (m ((c.tc : Thread Cert.KernelIdeal.nD Cert.KernelIdeal.τ).loc Cert.KernelIdeal.main_arg1))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)), ?_, ?_⟩
  · refine (θ_run Cert.KernelIdeal.defs _ _).mono (fun _ h c => ?_) (Cert.KernelIdeal.Run.run m ρ)
    obtain ⟨h0, h1, h2, hargs⟩ := h c
    obtain ⟨hx, hw⟩ := Cert.Pre_finite_inputs.Decode.tokens_and_weight_real _ _ _ _ _ _ (hpre c)
    refine ⟨h0.trans ?_, h1.trans ?_, h2, hargs⟩
    · rw [Cert.KernelIdeal.Arrays.tok_eq, Cert.KernelIdeal.Arrays.wDistT_eq, Cert.KernelIdeal.Bridge.distArr_eq]
      exact Cert.Probe.sqDistGram_eq_sqDist _ _ hx hw
    · rw [Cert.KernelIdeal.Arrays.tok_eq, Cert.KernelIdeal.Arrays.wDepthT_eq]
      exact Cert.KernelIdeal.Bridge.normArr_squeeze _ _
  · refine (θ_run Cert.ReferenceIdeal.defs _ _).mono (fun _ h c => ?_) (Cert.ReferenceIdeal.Value.run (F := Ideal) m' ρ')
    obtain ⟨h0, h1, h2, hargs⟩ := h c
    obtain ⟨a0, a1, a2, a3, a4, a5⟩ := hagree c
    refine ⟨h0.trans ?_, h1.trans ?_, h2.trans ?_, hargs⟩
    · rw [Cert.ReferenceIdeal.Read.val_main_v7_eq, Cert.ReferenceIdeal.RefValue.sqDist_eq, a0, a2]
    · rw [Cert.ReferenceIdeal.Read.val_main_v10_eq, Cert.ReferenceIdeal.RefValue.sqNorm_eq, a0, a3]
    · rw [Cert.ReferenceIdeal.Read.val_main_v34_eq, head_eq, a1, a4, a5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
